-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S512x256 : Shape := ⟨2, ![512, 256]⟩
abbrev S512x1 : Shape := ⟨2, ![512, 1]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S2048x256 .f32) (main_arg1 : FVec F S512x256 .f32) (main_arg2 : FVec F S512x1 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x1 .f32 := Host.absf main_arg2
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  main_v13
-- ==== Kernel.lean ====
abbrev S2048x256 : Shape := ⟨2, ![2048, 256]⟩
abbrev S512x256 : Shape := ⟨2, ![512, 256]⟩
abbrev S512x1 : Shape := ⟨2, ![512, 1]⟩
abbrev S2048x512 : Shape := ⟨2, ![2048, 512]⟩
abbrev S16x256 : Shape := ⟨2, ![16, 256]⟩
abbrev S16x512 : Shape := ⟨2, ![16, 512]⟩
abbrev S512 : Shape := ⟨1, ![512]⟩
abbrev S16x1x256 : Shape := ⟨3, ![16, 1, 256]⟩
abbrev S1x512x1 : Shape := ⟨3, ![1, 512, 1]⟩
abbrev S16x512x256 : Shape := ⟨3, ![16, 512, 256]⟩
abbrev S1x512x256 : Shape := ⟨3, ![1, 512, 256]⟩

abbrev nBuf : Space → Nat
  | .hbm => 4
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S512x256, .f32⟩
  | .hbm, ⟨2, _⟩ => ⟨S512x1, .f32⟩
  | .hbm, ⟨3, _⟩ => ⟨S2048x512, .f32⟩
  | .local _ .vmem, ⟨0, _⟩ => ⟨S16x256, .f32⟩
  | .local _ .vmem, ⟨1, _⟩ => ⟨S16x256, .f32⟩
  | .local _ .vmem, ⟨2, _⟩ => ⟨S512x256, .f32⟩
  | .local _ .vmem, ⟨3, _⟩ => ⟨S512x1, .f32⟩
  | .local _ .vmem, ⟨4, _⟩ => ⟨S16x512, .f32⟩
  | .local _ .vmem, ⟨5, _⟩ => ⟨S16x512, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S16x256_S16x256_0_0 : ∀ a, (![0, 0] : Fin 2 → Nat) a + S16x256.size a ≤ S16x256.size a
  h_S16x256 : 0 < S16x256.numel
  inb_S512x256_S512x256_0_0 : ∀ a, (![0, 0] : Fin 2 → Nat) a + S512x256.size a ≤ S512x256.size a
  h_S512x256 : 0 < S512x256.numel
  inb_S512x1_S512x1_0_0 : ∀ a, (![0, 0] : Fin 2 → Nat) a + S512x1.size a ≤ S512x1.size a
  h_S512x1 : 0 < S512x1.numel
  shapeCasts_S512x1_S512 : S512x1.ShapeCasts S512
  shapeCasts_S16x256_S16x1x256 : S16x256.ShapeCasts S16x1x256
  shapeCasts_S512_S1x512x1 : S512.ShapeCasts S1x512x1
  broadcasts_S16x1x256_S16x512x256 : S16x1x256.Broadcasts S16x512x256
  broadcasts_S1x512x1_S16x512x256 : S1x512x1.Broadcasts S16x512x256
  shapeCasts_S512x256_S1x512x256 : S512x256.ShapeCasts S1x512x256
  broadcasts_S1x512x256_S16x512x256 : S1x512x256.Broadcasts S16x512x256
  reduces_S16x512x256_S16x512 : S16x512x256.Reduces [2] S16x512
  inb_S16x512_S16x512_0_0 : ∀ a, (![0, 0] : Fin 2 → Nat) a + S16x512.size a ≤ S16x512.size a
  h_S16x512 : 0 < S16x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S2048x256.size a
  hwx0_0 : ∀ i : grid0.Coords, EltTy.bits .f32 = 32 ∨ (Rect.block (s := S2048x256) S16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S2048x512.size a
  hwx0_3 : ∀ i : grid0.Coords, EltTy.bits .f32 = 32 ∨ (Rect.block (s := S2048x512) S16x512.size (cc0_transform_3 i) (hinb0_3 i)).WholeWords (EltTy.packing .f32)

variable [Facts₀]

abbrev win0_0 : Pipeline.Window sig grid0 :=
  Pipeline.Window.ofSpec (Memref.whole main_arg0) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x256 : Shape := ⟨2, ![2048, 256]⟩
abbrev S512x256 : Shape := ⟨2, ![512, 256]⟩
abbrev S512x1 : Shape := ⟨2, ![512, 1]⟩
abbrev S1x512x256 : Shape := ⟨3, ![1, 512, 256]⟩
abbrev S2048x1x256 : Shape := ⟨3, ![2048, 1, 256]⟩
abbrev S1x512x1 : Shape := ⟨3, ![1, 512, 1]⟩
abbrev S2048x512x256 : Shape := ⟨3, ![2048, 512, 256]⟩
abbrev S_ : Shape := ⟨0, ![]⟩
abbrev S2048x512 : Shape := ⟨2, ![2048, 512]⟩

abbrev nBuf : Space → Nat
  | .hbm => 13
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S512x256, .f32⟩
  | .hbm, ⟨2, _⟩ => ⟨S512x1, .f32⟩
  | .hbm, ⟨3, _⟩ => ⟨S1x512x256, .f32⟩
  | .hbm, ⟨4, _⟩ => ⟨S2048x1x256, .f32⟩
  | .hbm, ⟨5, _⟩ => ⟨S1x512x1, .f32⟩
  | .hbm, ⟨6, _⟩ => ⟨S2048x512x256, .f32⟩
  | .hbm, ⟨7, _⟩ => ⟨S2048x512x256, .f32⟩
  | .hbm, ⟨8, _⟩ => ⟨S2048x512x256, .f32⟩
  | .hbm, ⟨9, _⟩ => ⟨S2048x512x256, .f32⟩
  | .hbm, ⟨10, _⟩ => ⟨S2048x512x256, .f32⟩
  | .hbm, ⟨11, _⟩ => ⟨S_, .f32⟩
  | .hbm, ⟨12, _⟩ => ⟨S2048x512, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S512x256_S1x512x256_1_2 : S512x256.BroadcastsInDim S1x512x256 (![1, 2] : Fin 2 → Fin S1x512x256.rank)
  bcast_S2048x256_S2048x1x256_0_2 : S2048x256.BroadcastsInDim S2048x1x256 (![0, 2] : Fin 2 → Fin S2048x1x256.rank)
  bcast_S512x1_S1x512x1_1_2 : S512x1.BroadcastsInDim S1x512x1 (![1, 2] : Fin 2 → Fin S1x512x1.rank)
  bcast_S2048x1x256_S2048x512x256_0_1_2 : S2048x1x256.BroadcastsInDim S2048x512x256 (![0, 1, 2] : Fin 3 → Fin S2048x512x256.rank)
  bcast_S1x512x1_S2048x512x256_0_1_2 : S1x512x1.BroadcastsInDim S2048x512x256 (![0, 1, 2] : Fin 3 → Fin S2048x512x256.rank)
  bcast_S1x512x256_S2048x512x256_0_1_2 : S1x512x256.BroadcastsInDim S2048x512x256 (![0, 1, 2] : Fin 3 → Fin S2048x512x256.rank)
  reducesTo_S2048x512x256_S2048x512_d2 : S2048x512x256.ReducesTo [2] S2048x512
  h_S_ : 0 < S_.numel

variable [Facts₀]

class Facts : Prop extends Facts₀ where

variable [Facts]
-- ==== Proof.LibMinReduce.lean ====
/-
  A minimum taken along ONE axis of an array of extended reals, read at a result index.

  Both programs of a kernel-against-reference pair may take such a minimum: the kernel by a
  `vector.multi_reduction <minimumf>` over one axis of a block, the reference by a one-operand
  `stablehlo.reduce` whose body is `stablehlo.minimum`. Each is defined as a fold of the two-argument minimum,
  from a starting value, over the source indices in row-major order. On the extended reals the two-argument
  minimum is `min`, which commutes and associates, so the order of the fold does not matter: at the result index
  `j` each is the fold of `min`, from the starting value, over the coordinates `k` of the dropped axis, of the
  source at `j` with `k` inserted on that axis (`Shape.Reduces.lift`). Stated so, a kernel's minimum over a
  block's rows and a reference's minimum over the whole array's rows are folds over the SAME index set `Fin n`
  and can be compared summand by summand.

  `multiReduction_minimumf_single` is the kernel's side; `hostReduce_minimumf_single` is the reference's. They
  are the counterparts for `min` of the readings of a sum and of a maximum along one axis.
-/
import Idealize.ShloMosaic.PureOps.Ideal.Laws

namespace Cert.LibMinReduce

open Idealize.ShloMosaic

variable {φ : FTy}

/-- A float `vector.multi_reduction <minimumf>` over the one axis `a`, at the exact values: at the result index
    `j` it is the fold of `min`, from the accumulator's value, over the coordinates `k` of axis `a`, of the source
    at `j` with `k` inserted. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's one-operand `stablehlo.reduce` with a minimum body over the one axis `a`, at the exact values: at
    `j` it is the fold of `min`, from the initial value's one element, over the coordinates `k` of axis `a`, of the
    operand at `j` with `k` inserted. (`h'` is the shape fact the operation carries; `h`, at the same shapes, names
    the inserted index.) -/
theorem hostReduce_minimumf_single {s t u : Shape} {a : Fin s.rank} (x : FVec Ideal s φ) (init : u.Idx → Ideal φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single (FloatOps.minimumf (F := Ideal) (φ := φ)) x init h' h hu j

end Cert.LibMinReduce
-- ==== Proof.MinPlus.lean ====
/-
  The specification: the scaled min-plus ("tropical") product.

  For X : [2048, 256], W : [512, 256] and a column of factors f : [512, 1], the result at (b, o) is

      min over k < 256 of  ( W[o, k] + X[b, k] · f[o, 0] ),

  the minimum starting from +∞ (the f32 word 0x7F800000 read as an extended real). Every operation is the exact one
  on the extended reals. `entry` is one such minimum, as a function of a row `w` of W, a row `x` of X and the
  row's factor `s`; `minPlus` is the whole [2048, 512] array. The kernel computes sixteen rows of it at a time and
  the reference all of it at once; both are shown to be this function.
-/
import Idealize.ShloMosaic.PureOps.Ideal
import Idealize.ShloMosaic.Lib.ValueIdx

noncomputable section

namespace Cert.MinPlus

open Idealize.ShloMosaic Idealize.ShloMosaic.ValueIdx

/-- One entry: the least of `w k + x k * s` over the 256 positions `k`, starting from +∞. -/
def entry (w x : Fin 256 → EReal) (s : EReal) : EReal :=
  (Finset.univ : Finset (Fin 256)).fold min (Ideal.ofBits .f32 0x7F800000#32) (fun k => w k + x k * s)

/-- The scaled min-plus product of `X` with `W` under the row factors `f`: at `(b, o)` the entry of row `o` of `W`,
    row `b` of `X` and the factor `f[o, 0]`. -/
def minPlus (X : FVec Ideal ⟨2, ![2048, 256]⟩ .f32) (W : FVec Ideal ⟨2, ![512, 256]⟩ .f32)
    (f : FVec Ideal ⟨2, ![512, 1]⟩ .f32) : FVec Ideal ⟨2, ![2048, 512]⟩ .f32 :=
  fun i => entry (fun k => W (ix2 (show Fin 512 from i 1) k)) (fun k => X (ix2 (show Fin 2048 from i 0) k))
    (f (ix2 (show Fin 512 from i 1) (0 : Fin 1)))

/-- The product at an index given by its coordinates. -/
theorem minPlus_apply (X : FVec Ideal ⟨2, ![2048, 256]⟩ .f32) (W : FVec Ideal ⟨2, ![512, 256]⟩ .f32)
    (f : FVec Ideal ⟨2, ![512, 1]⟩ .f32) (b : Fin 2048) (o : Fin 512) :
    minPlus X W f (ix2 b o) = entry (fun k => W (ix2 o k)) (fun k => X (ix2 b k)) (f (ix2 o (0 : Fin 1))) := rfl

end Cert.MinPlus

end
-- ==== Proof.KernelBlock.lean ====
/-
  What the kernel's body computes on one grid point's blocks, read at an index.

  The body loads a [16, 256] block `x0` of X, all of W (`x1`, [512, 256]) and all the factors (`x2`, [512, 1]),
  lays each out over the common shape [16, 512, 256] — X's block along axes 0 and 2, W along axes 1 and 2, the
  factors along axis 1 —, multiplies the first by the third, adds W, and takes the minimum along the last axis
  from +∞. Read at `(p, q)` of the [16, 512] result this is the specification's `entry` of row `q` of W, row `p`
  of the block and the factor of row `q`: each of the three layouts read at `(p, q, k)` is one element of its
  operand (`w_at`, `x_at`, `f_at`), and the minimum along the last axis is the fold of `min` over `k`
  (`min_last_apply`).
-/
import proofs.«168392_j70832600646265_1_alg».proof.Proof.Gen.KernelIdeal.Skeleton
import proofs.«168392_j70832600646265_1_alg».proof.Proof.LibMinReduce
import proofs.«168392_j70832600646265_1_alg».proof.Proof.MinPlus
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx

/-- W laid out over [16, 512, 256] (a leading unit axis, then copied along it) read at `(p, q, k)` is `W[q, k]`. -/
theorem w_at (x1 : FVec Ideal S512x256 .f32) (p : Fin 16) (q : Fin 512) (k : Fin 256) :
    broadcastTo S16x512x256 (shapeCast S1x512x256 x1 shapeCasts_S512x256_S1x512x256) broadcasts_S1x512x256_S16x512x256 (ix3 p q k)
      = x1 (ix2 q k) := by
  refine (broadcastTo_apply _ _ (ix3 p q k) (ix3 (0 : Fin 1) q k) (fun a => match a with
    | ⟨0, _⟩ => by show 0 = if (1 : Nat) = 1 then 0 else p.val; rw [if_pos rfl]
    | ⟨1, _⟩ => by show q.val = if (512 : Nat) = 1 then 0 else q.val; rw [if_neg (by decide)]
    | ⟨2, _⟩ => by show k.val = if (256 : Nat) = 1 then 0 else k.val; rw [if_neg (by decide)])).trans ?_
  exact shapeCast_apply _ _ (ix3 (0 : Fin 1) q k) (ix2 q k) (by
    rw [Shape.rowMajor_val_two, Shape.rowMajor_val_three]
    show q.val * 256 + k.val = ((0 : Nat) * 512 + q.val) * 256 + k.val
    omega)

/-- The block of X laid out over [16, 512, 256] (a middle unit axis, then copied along it) read at `(p, q, k)` is
    the block at `(p, k)`. -/
theorem x_at (x0 : FVec Ideal S16x256 .f32) (p : Fin 16) (q : Fin 512) (k : Fin 256) :
    broadcastTo S16x512x256 (shapeCast S16x1x256 x0 shapeCasts_S16x256_S16x1x256) broadcasts_S16x1x256_S16x512x256 (ix3 p q k)
      = x0 (ix2 p k) := by
  refine (broadcastTo_apply _ _ (ix3 p q k) (ix3 p (0 : Fin 1) k) (fun a => match a with
    | ⟨0, _⟩ => by show p.val = if (16 : Nat) = 1 then 0 else p.val; rw [if_neg (by decide)]
    | ⟨1, _⟩ => by show 0 = if (1 : Nat) = 1 then 0 else q.val; rw [if_pos rfl]
    | ⟨2, _⟩ => by show k.val = if (256 : Nat) = 1 then 0 else k.val; rw [if_neg (by decide)])).trans ?_
  exact shapeCast_apply _ _ (ix3 p (0 : Fin 1) k) (ix2 p k) (by
    rw [Shape.rowMajor_val_two, Shape.rowMajor_val_three]
    show p.val * 256 + k.val = (p.val * 1 + (0 : Nat)) * 256 + k.val
    omega)

/-- The column of factors, squeezed to a vector, given unit axes on both sides and copied over [16, 512, 256],
    read at `(p, q, k)` is the factor of row `q`. -/
theorem f_at (x2 : FVec Ideal S512x1 .f32) (p : Fin 16) (q : Fin 512) (k : Fin 256) :
    broadcastTo S16x512x256 (shapeCast S1x512x1 (shapeCast S512 x2 shapeCasts_S512x1_S512) shapeCasts_S512_S1x512x1)
        broadcasts_S1x512x1_S16x512x256 (ix3 p q k)
      = x2 (ix2 q (0 : Fin 1)) := by
  refine (broadcastTo_apply _ _ (ix3 p q k) (ix3 (0 : Fin 1) q (0 : Fin 1)) (fun a => match a with
    | ⟨0, _⟩ => by show 0 = if (1 : Nat) = 1 then 0 else p.val; rw [if_pos rfl]
    | ⟨1, _⟩ => by show q.val = if (512 : Nat) = 1 then 0 else q.val; rw [if_neg (by decide)]
    | ⟨2, _⟩ => by show 0 = if (1 : Nat) = 1 then 0 else k.val; rw [if_pos rfl])).trans ?_
  refine (shapeCast_apply _ _ (ix3 (0 : Fin 1) q (0 : Fin 1)) (ix1 q) (by
    rw [Shape.rowMajor_val_one, Shape.rowMajor_val_three]
    show q.val = ((0 : Nat) * 512 + q.val) * 1 + (0 : Nat)
    omega)).trans ?_
  exact shapeCast_apply _ _ (ix1 q) (ix2 q (0 : Fin 1)) (by
    rw [Shape.rowMajor_val_two, Shape.rowMajor_val_one]
    show q.val * 1 + (0 : Nat) = q.val
    omega)

/-- The minimum along the last axis of a [16, 512, 256] array from +∞, at `(p, q)`: the fold of `min` over `k` of
    the array at `(p, q, k)`. -/
theorem min_last_apply (v : FVec Ideal S16x512x256 .f32) (p : Fin 16) (q : Fin 512) :
    multiReduction .minimumf [2] S16x512 v 0x7F800000#32 reduces_S16x512x256_S16x512 (.inl rfl) rfl (ix2 p q)
      = (Finset.univ : Finset (Fin 256)).fold min (Ideal.ofBits .f32 0x7F800000#32) (fun k => v (ix3 p q k)) := by
  refine (Cert.LibMinReduce.multiReduction_minimumf_single v 0x7F800000#32 reduces_S16x512x256_S16x512 (.inl rfl) rfl (ix2 p q)).trans ?_
  refine congrArg (fun g => (Finset.univ : Finset (Fin 256)).fold min (Ideal.ofBits .f32 0x7F800000#32) g) (funext fun k => ?_)
  show v (reduces_S16x512x256_S16x512.lift (ix2 p q) k) = v (ix3 p q k)
  refine congrArg v (funext fun c => ?_)
  match c with
  | ⟨0, _⟩ => exact Fin.ext rfl
  | ⟨1, _⟩ => exact Fin.ext rfl
  | ⟨2, _⟩ => exact Fin.ext rfl

/-- THE BODY'S RESULT AT AN INDEX: at `(p, q)` the stored value is the entry of row `q` of W, row `p` of X's block
    and the factor of row `q`. -/
theorem pay_apply (x0 : FVec Ideal S16x256 .f32) (x1 : FVec Ideal S512x256 .f32) (x2 : FVec Ideal S512x1 .f32)
    (p : Fin 16) (q : Fin 512) :
    k0_pay1 (F := Ideal) x0 x1 x2 (ix2 p q)
      = Cert.MinPlus.entry (fun k => x1 (ix2 q k)) (fun k => x0 (ix2 p k)) (x2 (ix2 q (0 : Fin 1))) := by
  unfold k0_pay1
  refine (min_last_apply _ p q).trans ?_
  unfold Cert.MinPlus.entry
  refine congrArg (fun g => (Finset.univ : Finset (Fin 256)).fold min (Ideal.ofBits .f32 0x7F800000#32) g) (funext fun k => ?_)
  show _ + _ * _ = _
  rw [w_at x1 p q k, x_at x0 p q k, f_at x2 p q k]

end Cert.KernelIdeal.Block

end
-- ==== Proof.KernelValue.lean ====
/-
  From the kernel's blocks to its result array.

  The grid has 128 points. At point `t` the pipeline stages rows `16 t … 16 t + 15` of X, all of W and all the
  factors, and writes the body's [16, 512] result back as rows `16 t … 16 t + 15` of the [2048, 512] output
  (`idx_facts`: the block indices, decided over the grid). The body's result at `(p, q)` is the specification's
  entry of row `q` of W, row `p` of X's block — row `16 t + p` of X — and the factor of row `q`, which is the scaled
  min-plus product at `(16 t + p, q)`: what point `t` writes back is block `t` of the product (`flushed_eq`). Row
  `r` of the output lies in the block of point `r / 16`, so the blocks cover the output (`cover`) and the array
  after the run is the product of the argument arrays (`final`, `run`).
-/
import proofs.«168392_j70832600646265_1_alg».proof.Proof.Gen.KernelIdeal.Value
import proofs.«168392_j70832600646265_1_alg».proof.Proof.KernelBlock
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The scaled min-plus product of core `c`'s argument arrays as launched: what the output array is shown to hold. -/
abbrev result (c : Dev nD) : Buf (Elt Ideal) ((c : Thread nD τ).loc main_v0) :=
  Cert.MinPlus.minPlus (m ((c : Thread nD τ).loc main_arg0)) (m ((c : Thread nD τ).loc main_arg1))
    (m ((c : Thread nD τ).loc main_arg2))

/-- The block indices at point `t`: X's window and the output's are at row block `t`, W's and the factors' at the
    one block there is. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- X's block at point `t`, at `(p, k)`, is X at `(16 t + p, k)`. -/
theorem xblk_apply (c : Dev nD) (t : Fin cfg0.N) (p : Fin 16) (k : Fin 256) (b : Fin 2048) (hb : b.val = t.val * 16 + p.val) :
    (iblk m c 0 t : FVec Ideal S16x256 .f32) (ix2 p k) = (m ((c : Thread nD τ).loc main_arg0) : FVec Ideal S2048x256 .f32) (ix2 b k) := by
  obtain ⟨e00, e01, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 2) * 16 + 1 * p.val = b.val; rw [e00, hb]; omega
  | ⟨1, _⟩ => show win0_0.index t (1 : Fin 2) * 256 + 1 * k.val = k.val; rw [e01]; omega

/-- W's block at any point is W. -/
theorem wblk_apply (c : Dev nD) (t : Fin cfg0.N) (q : Fin 512) (k : Fin 256) :
    (iblk m c 1 t : FVec Ideal S512x256 .f32) (ix2 q k) = (m ((c : Thread nD τ).loc main_arg1) : FVec Ideal S512x256 .f32) (ix2 q k) := by
  obtain ⟨-, -, e10, e11, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 2) * 512 + 1 * q.val = q.val; rw [e10]; omega
  | ⟨1, _⟩ => show win0_1.index t (1 : Fin 2) * 256 + 1 * k.val = k.val; rw [e11]; omega

/-- The factors' block at any point is the column of factors. -/
theorem fblk_apply (c : Dev nD) (t : Fin cfg0.N) (q : Fin 512) :
    (iblk m c 2 t : FVec Ideal S512x1 .f32) (ix2 q (0 : Fin 1)) = (m ((c : Thread nD τ).loc main_arg2) : FVec Ideal S512x1 .f32) (ix2 q (0 : Fin 1)) := by
  obtain ⟨-, -, -, -, e20, e21, -⟩ := idx_facts t
  unfold iblk
  rw [View.read_apply]
  show V m c main_arg2 _ = m (c.tc.loc main_arg2) _
  unfold V
  congr 1
  funext a
  apply Fin.ext
  match a with
  | ⟨0, _⟩ => show win0_2.index t (0 : Fin 2) * 512 + 1 * q.val = q.val; rw [e20]; omega
  | ⟨1, _⟩ => show win0_2.index t (1 : Fin 2) * 1 + 1 * (0 : Nat) = 0; rw [e21]

/-- WHAT POINT `t` WRITES BACK is block `t` — rows `16 t … 16 t + 15` — of the product of the argument arrays. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S16x256) hz, View.ld_unit_zero (S := S512x256) hz, View.ld_unit_zero (S := S512x1) hz]
  obtain ⟨-, -, -, -, -, -, e30, e31⟩ := idx_facts t
  have hN : cfg0.N = 128 := N_0
  have ht : t.val < 128 := hN ▸ t.isLt
  funext j
  obtain ⟨p, q, rfl⟩ : ∃ (p : Fin 16) (q : Fin 512), j = ix2 p q := ⟨j 0, j 1, eq_ix2 j⟩
  have hrow : ((cfg0.win 3).blk t).view.emb (ix2 p q) = ix2 (⟨t.val * 16 + p.val, by have := p.isLt; omega⟩ : Fin 2048) q := by
    funext a
    apply Fin.ext
    match a with
    | ⟨0, _⟩ => show win0_3.index t (0 : Fin 2) * 16 + 1 * p.val = t.val * 16 + p.val; rw [e30]; omega
    | ⟨1, _⟩ => show win0_3.index t (1 : Fin 2) * 512 + 1 * q.val = q.val; rw [e31]; omega
  show k0_pay1 (F := Ideal) (iblk m c 0 t) (iblk m c 1 t) (iblk m c 2 t) (ix2 p q) = result m c (((cfg0.win 3).blk t).view.emb (ix2 p q))
  rw [hrow]
  refine (Cert.KernelIdeal.Block.pay_apply (iblk m c 0 t) (iblk m c 1 t) (iblk m c 2 t) p q).trans ?_
  show _ = Cert.MinPlus.entry _ _ _
  refine congr (congr (congrArg Cert.MinPlus.entry (funext fun k => ?_)) (funext fun k => ?_)) ?_
  · exact wblk_apply m c t q k
  · exact xblk_apply m c t p k _ rfl
  · exact fblk_apply m c t q

/-- An index of the output is in point `t`'s block iff each coordinate is in the block's range on its axis. -/
theorem mem_blk (t : Fin cfg0.N) (i : S2048x512.Idx) :
    i ∈ ((cfg0.win 3).blk t).view.set ↔ ∀ a : Fin 2, win0_3.index t a * S16x512.size a ≤ (i a).val ∧ (i a).val < win0_3.index t a * S16x512.size a + S16x512.size a := by
  show i ∈ ((View.whole main_v0).slice (win0_3.rect t)).set ↔ _
  rw [View.set_slice_whole, Rect.mem_set_unit]
  exact Iff.rfl

/-- Every index of the output is in some point's block: row `r` in the block of point `r / 16`. -/
theorem cover (i : S2048x512.Idx) : ∃ t : Fin cfg0.N, (cfg0.win 3).flush t = true ∧ i ∈ ((cfg0.win 3).blk t).view.set := by
  have hN : cfg0.N = 128 := N_0
  have hi0 : (i 0).val < 2048 := (i 0).isLt
  have hi1 : (i 1).val < 512 := (i 1).isLt
  let t : Fin cfg0.N := ⟨(i 0).val / 16, by rw [hN]; omega⟩
  obtain ⟨-, -, -, -, -, -, e30, e31⟩ := idx_facts t
  have htv : t.val = (i 0).val / 16 := rfl
  refine ⟨t, flush0_3 t, ?_⟩
  rw [mem_blk]
  intro a
  match a with
  | ⟨0, _⟩ => show win0_3.index t (0 : Fin 2) * 16 ≤ (i 0).val ∧ (i 0).val < win0_3.index t (0 : Fin 2) * 16 + 16; rw [e30, htv]; omega
  | ⟨1, _⟩ => show win0_3.index t (1 : Fin 2) * 512 ≤ (i 1).val ∧ (i 1).val < win0_3.index t (1 : Fin 2) * 512 + 512; rw [e31]; omega

/-- THE OUTPUT ARRAY after the run is the product of the argument arrays. -/
theorem final (c : Dev nD) : (dats m 0 c).arrAt 3 cfg0.N = result m c :=
  (dats m 0 c).arrAt_eq_of_cover 3 (result m c) (fun t _ => flushed_eq m c t) cover

/-- The run, read: the output array at the product of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelIdeal.Whole

end
-- ==== Proof.RefValue.lean ====
/-
  The reference computes the specification.

  The reference lays W, X and the factors out over [2048, 512, 256] — W along axes 1 and 2, X along axes 0 and 2,
  the factors along axis 1, each through an intermediate array with unit axes —, multiplies X's layout by the
  factors', adds W's, and takes the minimum along the last axis from the scalar +∞. At `(b, o)` the minimum is the
  fold of `min` over `k` of the sum at `(b, o, k)`, and each layout read at `(b, o, k)` is one element of its
  argument: `W[o, k]`, `X[b, k]`, `f[o, 0]`. So the result is the scaled min-plus product, entry by entry.
-/
import proofs.«168392_j70832600646265_1_alg».proof.Proof.Gen.ReferenceIdeal.Read
import proofs.«168392_j70832600646265_1_alg».proof.Proof.LibMinReduce
import proofs.«168392_j70832600646265_1_alg».proof.Proof.MinPlus
import Idealize.ShloMosaic.Lib.ValueIdx

noncomputable section

namespace Cert.ReferenceIdeal.Whole

open Cert.ReferenceIdeal Cert.ReferenceIdeal.Gen Cert.ReferenceIdeal.Read Idealize.ShloMosaic Idealize.ShloMosaic.ValueIdx

/-- The shape fact of the minimum along the last axis, in the form that names the inserted index. -/
theorem reduces_last : S2048x512x256.Reduces [2] S2048x512 := by decide

/-- The sum the reference minimises, at `(b, o, k)`: `W[o, k] + X[b, k] · f[o, 0]`. -/
theorem summand_apply (X : FVec Ideal S2048x256 .f32) (W : FVec Ideal S512x256 .f32) (f : FVec Ideal S512x1 .f32)
    (b : Fin 2048) (o : Fin 512) (k : Fin 256) :
    val_main_v7 (F := Ideal) X W f (ix3 b o k) = W (ix2 o k) + X (ix2 b k) * f (ix2 o (0 : Fin 1)) := by
  rw [val_main_v7_apply, val_main_v6_apply, val_main_v0_apply, val_main_v5_apply, val_main_v3_apply,
    val_main_v1_apply, val_main_v4_apply, val_main_v2_apply]
  have eW : idx_main_v0 (idx_main_v6 (ix3 b o k)) = ix2 o k :=
    funext fun a => Fin.ext (by match a with | ⟨0, _⟩ => rfl | ⟨1, _⟩ => rfl)
  have eX : idx_main_v1 (idx_main_v3 (ix3 b o k)) = ix2 b k :=
    funext fun a => Fin.ext (by match a with | ⟨0, _⟩ => rfl | ⟨1, _⟩ => rfl)
  have ef : idx_main_v2 (idx_main_v4 (ix3 b o k)) = ix2 o (0 : Fin 1) :=
    funext fun a => Fin.ext (by match a with | ⟨0, _⟩ => rfl | ⟨1, _⟩ => rfl)
  rw [eW, eX, ef]
  rfl

/-- THE REFERENCE'S RESULT is the scaled min-plus product of its arguments. -/
theorem ref_eq (X : FVec Ideal S2048x256 .f32) (W : FVec Ideal S512x256 .f32) (f : FVec Ideal S512x1 .f32) :
    val_main_v8 (F := Ideal) X W f = Cert.MinPlus.minPlus X W f := by
  funext i
  obtain ⟨b, o, rfl⟩ : ∃ (b : Fin 2048) (o : Fin 512), i = ix2 b o := ⟨i 0, i 1, eq_ix2 i⟩
  rw [Cert.MinPlus.minPlus_apply]
  unfold val_main_v8
  refine (Cert.LibMinReduce.hostReduce_minimumf_single _ _ reducesTo_S2048x512x256_S2048x512_d2 reduces_last h_S_ (ix2 b o)).trans ?_
  unfold Cert.MinPlus.entry
  refine congrArg (fun g => (Finset.univ : Finset (Fin 256)).fold min (Ideal.ofBits .f32 0x7F800000#32) g) (funext fun k => ?_)
  show val_main_v7 (F := Ideal) X W f (reduces_last.lift (ix2 b o) k) = _
  have hl : reduces_last.lift (ix2 b o) k = ix3 b o k := funext fun c => by
    match c with
    | ⟨0, _⟩ => exact Fin.ext rfl
    | ⟨1, _⟩ => exact Fin.ext rfl
    | ⟨2, _⟩ => exact Fin.ext rfl
  rw [hl]
  exact summand_apply X W f b o k

end Cert.ReferenceIdeal.Whole

end
-- ==== Proof.lean ====
/-
  The scaled min-plus product, kernel against reference, over the extended reals.

  For X : [2048, 256], W : [512, 256] and a column of factors f : [512, 1] both programs compute, at (b, o),

      min over k < 256 of  ( W[o, k] + X[b, k] · f[o, 0] ),

  the minimum taken from +∞ (Proof/MinPlus.lean states this function). The kernel computes sixteen rows of the
  result per grid point, laying its blocks out over [16, 512, 256] and taking a `vector.multi_reduction <minimumf>`
  along the last axis; the reference lays the whole arrays out over [2048, 512, 256] and takes a `stablehlo.reduce`
  with a minimum body along the last axis. The two sides use the same operations in the same order on each summand,
  so no law of arithmetic is needed between them, and finiteness of the inputs is never used: the only fact about
  the extended reals is that `min` commutes and associates, which lets either minimum be read as the fold of `min`
  over the 256 positions `k` whatever order its definition folds in (Proof/LibMinReduce.lean).

  Proof/KernelBlock.lean reads the body's result at an index; Proof/KernelValue.lean shows that point `t` writes rows
  `16 t … 16 t + 15` of the product and that these blocks cover the output, so the kernel's result array is the
  product of its arguments; Proof/RefValue.lean shows the same of the reference's result. Here: the three frames
  (the kernel's two from their frame certificates, the reference's from its run), the idealization claim (the
  ideal pass rewrote nothing, so there is nothing to restate), and the equality of the two results.
-/
import proofs.«168392_j70832600646265_1_alg».proof.Defs
import proofs.«168392_j70832600646265_1_alg».proof.Proof.Gen.Kernel
import proofs.«168392_j70832600646265_1_alg».proof.Proof.Gen.Kernel.Skeleton
import proofs.«168392_j70832600646265_1_alg».proof.Proof.Gen.Kernel.Launch
import proofs.«168392_j70832600646265_1_alg».proof.Proof.Gen.Kernel.Points
import proofs.«168392_j70832600646265_1_alg».proof.Proof.Gen.Kernel.Frame
import proofs.«168392_j70832600646265_1_alg».proof.Proof.Gen.KernelIdeal
import proofs.«168392_j70832600646265_1_alg».proof.Proof.Gen.KernelIdeal.Skeleton
import proofs.«168392_j70832600646265_1_alg».proof.Proof.Gen.KernelIdeal.Launch
import proofs.«168392_j70832600646265_1_alg».proof.Proof.Gen.KernelIdeal.Points
import proofs.«168392_j70832600646265_1_alg».proof.Proof.Gen.KernelIdeal.Frame
import proofs.«168392_j70832600646265_1_alg».proof.Proof.Gen.ReferenceIdeal
import proofs.«168392_j70832600646265_1_alg».proof.Proof.Gen.Pre_finite_inputs
import proofs.«168392_j70832600646265_1_alg».proof.Proof.Gen.KernelIdeal.Value
import proofs.«168392_j70832600646265_1_alg».proof.Proof.Gen.ReferenceIdeal.Run
import proofs.«168392_j70832600646265_1_alg».proof.Proof.Gen.ReferenceIdeal.Read
import proofs.«168392_j70832600646265_1_alg».proof.Proof.KernelValue
import proofs.«168392_j70832600646265_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read at the exact values. -/
theorem frame_ki : Cert.frame_KernelIdeal := fun m ρ _ => Cert.KernelIdeal.Gen.frame m ρ

/-- The reference runs and leaves its arguments unchanged: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on X, W and the factors, the kernel's result array and the reference's both end at the
    scaled min-plus product of those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Whole.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
